-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S20000x128 : Shape := ⟨2, ![20000, 128]⟩
abbrev S256x64 : Shape := ⟨2, ![256, 64]⟩
abbrev S64 : Shape := ⟨1, ![64]⟩
abbrev S128x64 : Shape := ⟨2, ![128, 64]⟩
abbrev S2x1000000 : Shape := ⟨2, ![2, 1000000]⟩
abbrev S2x640000 : Shape := ⟨2, ![2, 640000]⟩
abbrev S_ : Shape := ⟨0, ![]⟩
abbrev S1x1000000 : Shape := ⟨2, ![1, 1000000]⟩
abbrev S1000000 : Shape := ⟨1, ![1000000]⟩
abbrev S1x640000 : Shape := ⟨2, ![1, 640000]⟩
abbrev S640000 : Shape := ⟨1, ![640000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg7 : IVec S2x640000 32) (main_v28 : IVec S_ 1) (main_v32 : IVec S1000000 1) (main_v34 : IVec S1000000 32) : IVec S_ 1 :=
  let main_c_11 : IVec S_ 32 := constantI S_ 32 50000#32
  let main_v35 : IVec S1000000 32 := broadcastInDim S1000000 ![] bcast_S_S1000000 main_c_11
  let main_v36 : IVec S1000000 1 := cmpi .slt main_v34 main_v35
  let main_v37 : IVec S1000000 1 := andi main_v32 main_v36
  let main_c_12 : IVec S_ 1 := constantI S_ 1 1#1
  let main_v38 : IVec S_ 1 := (fun x v => Host.reduce IntOp.andi x v reducesTo_S1000000_S_d0 h_S_) main_v37 main_c_12
  let main_v39 : IVec S_ 1 := andi main_v28 main_v38
  let main_v40 : IVec S1x640000 32 := (extractStridedSlice S1x640000 ![0, 0] · slices_S2x640000_S1x640000_0_0) main_arg7
  let main_v41 : IVec S640000 32 := shapeCast S640000 main_v40 shapeCasts_S1x640000_S640000
  let main_c_13 : IVec S_ 32 := constantI S_ 32 4294947296#32
  let main_v42 : IVec S640000 32 := broadcastInDim S640000 ![] bcast_S_S640000 main_c_13
  let main_v43 : IVec S640000 1 := cmpi .sge main_v41 main_v42
  let main_v44 : IVec S1x640000 32 := (extractStridedSlice S1x640000 ![0, 0] · slices_S2x640000_S1x640000_0_0) main_arg7
  let main_v45 : IVec S640000 32 := shapeCast S640000 main_v44 shapeCasts_S1x640000_S640000
  let main_c_14 : IVec S_ 32 := constantI S_ 32 20000#32
  let main_v46 : IVec S640000 32 := broadcastInDim S640000 ![] bcast_S_S640000 main_c_14
  let main_v47 : IVec S640000 1 := cmpi .slt main_v45 main_v46
  let main_v48 : IVec S640000 1 := andi main_v43 main_v47
  let main_c_15 : IVec S_ 1 := constantI S_ 1 1#1
  let main_v49 : IVec S_ 1 := (fun x v => Host.reduce IntOp.andi x v reducesTo_S640000_S_d0 h_S_) main_v48 main_c_15
  let main_v50 : IVec S_ 1 := andi main_v39 main_v49
  main_v50

def fn_part1 {F : FTy → Type} [FloatOps F] (main_arg4 : FVec F S128x64 .f32) (main_arg5 : FVec F S64 .f32) (main_arg6 : IVec S2x1000000 32) (main_arg7 : IVec S2x640000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1000000 32 := (extractStridedSlice S1x1000000 ![0, 0] · slices_S2x1000000_S1x1000000_0_0) main_arg6
  let main_v30 : IVec S1000000 32 := shapeCast S1000000 main_v29 shapeCasts_S1x1000000_S1000000
  let main_c_10 : IVec S_ 32 := constantI S_ 32 4294917296#32
  let main_v31 : IVec S1000000 32 := broadcastInDim S1000000 ![] bcast_S_S1000000 main_c_10
  let main_v32 : IVec S1000000 1 := cmpi .sge main_v30 main_v31
  let main_v33 : IVec S1x1000000 32 := (extractStridedSlice S1x1000000 ![0, 0] · slices_S2x1000000_S1x1000000_0_0) main_arg6
  let main_v34 : IVec S1000000 32 := shapeCast S1000000 main_v33 shapeCasts_S1x1000000_S1000000
  fn_part2 (F := F) main_arg7 main_v28 main_v32 main_v34

def fn {F : FTy → Type} [FloatOps F] (main_arg0 : FVec F S50000x256 .f32) (main_arg1 : FVec F S20000x128 .f32) (main_arg2 : FVec F S256x64 .f32) (main_arg3 : FVec F S64 .f32) (main_arg4 : FVec F S128x64 .f32) (main_arg5 : FVec F S64 .f32) (main_arg6 : IVec S2x1000000 32) (main_arg7 : IVec S2x640000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S50000x256 : Shape := ⟨2, ![50000, 256]⟩
abbrev S20000x128 : Shape := ⟨2, ![20000, 128]⟩
abbrev S256x64 : Shape := ⟨2, ![256, 64]⟩
abbrev S64 : Shape := ⟨1, ![64]⟩
abbrev S128x64 : Shape := ⟨2, ![128, 64]⟩
abbrev S2x1000000 : Shape := ⟨2, ![2, 1000000]⟩
abbrev S2x640000 : Shape := ⟨2, ![2, 640000]⟩
abbrev S50000x64 : Shape := ⟨2, ![50000, 64]⟩
abbrev S5000x256 : Shape := ⟨2, ![5000, 256]⟩
abbrev S5000x64 : Shape := ⟨2, ![5000, 64]⟩
abbrev S20000x64 : Shape := ⟨2, ![20000, 64]⟩
abbrev S5000x128 : Shape := ⟨2, ![5000, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S1x64 : Shape := ⟨2, ![1, 64]⟩
abbrev S1x640000 : Shape := ⟨2, ![1, 640000]⟩
abbrev S640000 : Shape := ⟨1, ![640000]⟩
abbrev S640000x1 : Shape := ⟨2, ![640000, 1]⟩
abbrev S640000x64 : Shape := ⟨2, ![640000, 64]⟩

abbrev nBuf : Space → Nat
  | .hbm => 78
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S20000x128, .f32⟩
  | .hbm, ⟨2, _⟩ => ⟨S256x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S2x1000000, .i32⟩
  | .hbm, ⟨7, _⟩ => ⟨S2x640000, .i32⟩
  | .hbm, ⟨8, _⟩ => ⟨S50000x64, .f32⟩
  | .hbm, ⟨9, _⟩ => ⟨S20000x64, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1, .i32⟩
  | .hbm, ⟨23, _⟩ => ⟨S_, .i32⟩
  | .hbm, ⟨24, _⟩ => ⟨S1000000x1, .i32⟩
  | .hbm, ⟨25, _⟩ => ⟨S1000000x1, .i1⟩
  | .hbm, ⟨26, _⟩ => ⟨S1x1, .i32⟩
  | .hbm, ⟨27, _⟩ => ⟨S1000000x1, .i32⟩
  | .hbm, ⟨28, _⟩ => ⟨S1000000x1, .i1⟩
  | .hbm, ⟨29, _⟩ => ⟨S1000000x1, .i1⟩
  | .hbm, ⟨30, _⟩ => ⟨S_, .i1⟩
  | .hbm, ⟨31, _⟩ => ⟨S1000000, .i1⟩
  | .hbm, ⟨32, _⟩ => ⟨S1000000x64, .f32⟩
  | .hbm, ⟨33, _⟩ => ⟨S1000000x64, .i1⟩
  | .hbm, ⟨34, _⟩ => ⟨S_, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S50000x64, .f32⟩
  | .hbm, ⟨39, _⟩ => ⟨S1000000x1, .i32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S1x640000, .i32⟩
  | .hbm, ⟨45, _⟩ => ⟨S640000, .i32⟩
  | .hbm, ⟨46, _⟩ => ⟨S1x640000, .i32⟩
  | .hbm, ⟨47, _⟩ => ⟨S640000, .i32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S1, .i32⟩
  | .hbm, ⟨57, _⟩ => ⟨S_, .i32⟩
  | .hbm, ⟨58, _⟩ => ⟨S640000x1, .i32⟩
  | .hbm, ⟨59, _⟩ => ⟨S640000x1, .i1⟩
  | .hbm, ⟨60, _⟩ => ⟨S1x1, .i32⟩
  | .hbm, ⟨61, _⟩ => ⟨S640000x1, .i32⟩
  | .hbm, ⟨62, _⟩ => ⟨S640000x1, .i1⟩
  | .hbm, ⟨63, _⟩ => ⟨S640000x1, .i1⟩
  | .hbm, ⟨64, _⟩ => ⟨S_, .i1⟩
  | .hbm, ⟨65, _⟩ => ⟨S640000, .i1⟩
  | .hbm, ⟨66, _⟩ => ⟨S640000x64, .f32⟩
  | .hbm, ⟨67, _⟩ => ⟨S640000x64, .i1⟩
  | .hbm, ⟨68, _⟩ => ⟨S_, .f32⟩
  | .hbm, ⟨69, _⟩ => ⟨S640000x64, .f32⟩
  | .hbm, ⟨70, _⟩ => ⟨S640000x64, .f32⟩
  | .hbm, ⟨71, _⟩ => ⟨S_, .f32⟩
  | .hbm, ⟨72, _⟩ => ⟨S20000x64, .f32⟩
  | .hbm, ⟨73, _⟩ => ⟨S640000x1, .i32⟩
  | .hbm, ⟨74, _⟩ => ⟨S20000x64, .f32⟩
  | .hbm, ⟨75, _⟩ => ⟨S1x64, .f32⟩
  | .hbm, ⟨76, _⟩ => ⟨S20000x64, .f32⟩
  | .hbm, ⟨77, _⟩ => ⟨S20000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v17 : Ref sig .tc := ⟨.hbm, 70, rfl⟩
abbrev main_cst_0 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1x1_S640000x1_0_1 : S1x1.BroadcastsInDim S640000x1 (![0, 1] : Fin 2 → Fin S640000x1.rank)
  reducesTo_S640000x1_S640000_d1 : S640000x1.ReducesTo [1] S640000
  bcast_S640000_S640000x64_0 : S640000.BroadcastsInDim S640000x64 (![0] : Fin 1 → Fin S640000x64.rank)
  bcast_S_S640000x64 : S_.BroadcastsInDim S640000x64 (![] : Fin 0 → Fin S640000x64.rank)
  bcast_S_S20000x64 : S_.BroadcastsInDim S20000x64 (![] : Fin 0 → Fin S20000x64.rank)
  bcast_S1x64_S20000x64_0_1 : S1x64.BroadcastsInDim S20000x64 (![0, 1] : Fin 2 → Fin S20000x64.rank)
  dot_S5000x256_S256x64_S5000x64_1_0_0_1_n_n_wf : DotDims.WF S5000x256 S256x64 S5000x64 [1] [0] [0] [1] [] []
  dot_S5000x128_S128x64_S5000x64_1_0_0_1_n_n_wf : DotDims.WF S5000x128 S128x64 S5000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S20000x64.size a
  hwx1_2 : ∀ i : grid1.Coords, EltTy.bits .f32 = 32 ∨ (Rect.block (s := S20000x64) S5000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S20000x128 : Shape := ⟨2, ![20000, 128]⟩
abbrev S256x64 : Shape := ⟨2, ![256, 64]⟩
abbrev S64 : Shape := ⟨1, ![64]⟩
abbrev S128x64 : Shape := ⟨2, ![128, 64]⟩
abbrev S2x1000000 : Shape := ⟨2, ![2, 1000000]⟩
abbrev S2x640000 : Shape := ⟨2, ![2, 640000]⟩
abbrev S50000x64 : Shape := ⟨2, ![50000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S20000x64 : Shape := ⟨2, ![20000, 64]⟩
abbrev S1x640000 : Shape := ⟨2, ![1, 640000]⟩
abbrev S640000 : Shape := ⟨1, ![640000]⟩
abbrev S640000x1 : Shape := ⟨2, ![640000, 1]⟩
abbrev S640000x64 : Shape := ⟨2, ![640000, 64]⟩

abbrev nBuf : Space → Nat
  | .hbm => 50
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S20000x128, .f32⟩
  | .hbm, ⟨2, _⟩ => ⟨S256x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S2x1000000, .i32⟩
  | .hbm, ⟨7, _⟩ => ⟨S2x640000, .i32⟩
  | .hbm, ⟨8, _⟩ => ⟨S50000x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S_, .f32⟩
  | .hbm, ⟨23, _⟩ => ⟨S50000x64, .f32⟩
  | .hbm, ⟨24, _⟩ => ⟨S1000000x1, .i32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S20000x64, .f32⟩
  | .hbm, ⟨30, _⟩ => ⟨S1x640000, .i32⟩
  | .hbm, ⟨31, _⟩ => ⟨S640000, .i32⟩
  | .hbm, ⟨32, _⟩ => ⟨S1x640000, .i32⟩
  | .hbm, ⟨33, _⟩ => ⟨S640000, .i32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x64, .f32⟩
  | .hbm, ⟨43, _⟩ => ⟨S_, .f32⟩
  | .hbm, ⟨44, _⟩ => ⟨S20000x64, .f32⟩
  | .hbm, ⟨45, _⟩ => ⟨S640000x1, .i32⟩
  | .hbm, ⟨46, _⟩ => ⟨S20000x64, .f32⟩
  | .hbm, ⟨47, _⟩ => ⟨S1x64, .f32⟩
  | .hbm, ⟨48, _⟩ => ⟨S20000x64, .f32⟩
  | .hbm, ⟨49, _⟩ => ⟨S20000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x64 : S_.BroadcastsInDim S20000x64 (![] : Fin 0 → Fin S20000x64.rank)
  bcast_S1x64_S20000x64_0_1 : S1x64.BroadcastsInDim S20000x64 (![0, 1] : Fin 2 → Fin S20000x64.rank)
  dot_S50000x256_S256x64_S50000x64_1_0_0_1_n_n_wf : DotDims.WF S50000x256 S256x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S20000x128_S128x64_S20000x64_1_0_0_1_n_n_wf : DotDims.WF S20000x128 S128x64 S20000x64 [1] [0] [0] [1] [] []
  gather_S20000x64_S640000x1_S640000x64_1_0_n_n_0_1_164_wf : GatherDims.WF S20000x64 S640000x1 S640000x64 [1] [0] [] [0] [] 1 ![1, 64]
  scatter_S20000x64_S640000x1_S640000x64_1_0_0_1_wf : ScatterDims.WF S20000x64 S640000x1 S640000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x64_S640000x1_S640000x64_1_0_n_n_0_1_164 : GatherDims S20000x64 S640000x1 S640000x64 where
  offsetDims := [1]
  collapsedSliceDims := [0]
  operandBatchingDims := []
  startIndicesBatchingDims := []
  startIndexMap := [0]
  indexVectorDim := 1
  sliceSizes := ![1, 64]
  wf := gather_S20000x64_S640000x1_S640000x64_1_0_n_n_0_1_164_wf
def scatter_S20000x64_S640000x1_S640000x64_1_0_0_1 : ScatterDims S20000x64 S640000x1 S640000x64 where
  updateWindowDims := [1]
  insertedWindowDims := [0]
  scatterDimsToOperandDims := [0]
  indexVectorDim := 1
  wf := scatter_S20000x64_S640000x1_S640000x64_1_0_0_1_wf

class Facts : Prop extends Facts₀ where

variable [Facts]
-- ==== Proof.LibIndexWords.lean ====
/-
  GENERAL LEMMAS (no program imported): signed 32-bit index words, for a kernel or reference that reads rows of a table by
  `jnp.take` / `x[idx]` and tests the index against the table (jnp.take's default fill mode).
  `sge_iff` / `sle_iff` / `slt_iff`: a signed compare that answers 1 is the compare of the two integers (any words, negative ones
  too). `wrapped_in_range`: a word in [-n, n), wrapped from the end when negative (`s < 0 ? s + n : s`), passes both tests
  `0 ≤ w` and `w ≤ n - 1`. `select_one`: a select on the word 1 takes its first branch. `reduce_andi_of_forall`: a
  `stablehlo.reduce` by `and` from 1 over words that are all 1 is 1 (the converse of the library's `Host.reduce_andi_all`).

  A row index into a table of `n` rows is a signed 32-bit word `s`; jnp reads a negative one from the
  end, as `s + n`. Read as integers: if `-n ≤ s < n` then the wrapped word `w = (s < 0 ? s + n : s)` satisfies
  `0 ≤ w ≤ n - 1` — the sum cannot wrap because `n` is far below 2³¹ — so the test "is the wrapped index inside
  the table" answers 1. Also: a reduction by `and` started at 1 over words that are all 1 is 1.
-/
import Idealize.ShloMosaic.PureOps
import Idealize.ShloMosaic.Lib.ReduceAll

namespace Cert.IndexWords

open Idealize.ShloMosaic

theorem ofBool_eq_one (b : Bool) : BitVec.ofBool b = 1#1 ↔ b = true := by cases b <;> decide

/-- The signed compares of two words, as compares of the integers they denote. -/
theorem sge_iff (a b : BitVec 32) : IntOp.cmpi .sge a b = 1#1 ↔ b.toInt ≤ a.toInt := by
  show BitVec.ofBool (b.sle a) = 1#1 ↔ _
  rw [ofBool_eq_one]; simp [BitVec.sle]

theorem sle_iff (a b : BitVec 32) : IntOp.cmpi .sle a b = 1#1 ↔ a.toInt ≤ b.toInt := by
  show BitVec.ofBool (a.sle b) = 1#1 ↔ _
  rw [ofBool_eq_one]; simp [BitVec.sle]

theorem slt_iff (a b : BitVec 32) : IntOp.cmpi .slt a b = 1#1 ↔ a.toInt < b.toInt := by
  show BitVec.ofBool (a.slt b) = 1#1 ↔ _
  rw [ofBool_eq_one]; simp [BitVec.slt]

/-- A word in `[-n, n)`, wrapped from the end when negative, lies in `[0, n - 1]`: both range tests answer 1. -/
theorem wrapped_in_range (n : ℤ) (hn : 0 < n) (hn' : n < 2 ^ 30) (lo nn hi s : BitVec 32)
    (hlo : lo.toInt = -n) (hnn : nn.toInt = n) (hhi : hi.toInt = n - 1)
    (h1 : IntOp.cmpi .sge s lo = 1#1) (h2 : IntOp.cmpi .slt s nn = 1#1) :
    IntOp.andi (IntOp.cmpi .sge (Scalar.select (IntOp.cmpi .slt s 0#32) (IntOp.addi s nn) s) 0#32)
      (IntOp.cmpi .sle (Scalar.select (IntOp.cmpi .slt s 0#32) (IntOp.addi s nn) s) hi) = 1#1 := by
  rw [sge_iff, hlo] at h1
  rw [slt_iff, hnn] at h2
  have z : (0#32 : BitVec 32).toInt = 0 := BitVec.toInt_zero
  rw [IntOp.andi_eq_one]
  unfold Scalar.select
  by_cases hs : IntOp.cmpi .slt s 0#32 = (1 : BitVec 1)
  · rw [if_pos hs]
    replace hs : IntOp.cmpi .slt s 0#32 = 1#1 := hs
    rw [slt_iff, z] at hs
    have ha : (IntOp.addi s nn).toInt = s.toInt + n := by
      show (s + nn).toInt = _
      rw [BitVec.toInt_add, hnn]
      exact Int.bmod_eq_of_le (by omega) (by omega)
    rw [sge_iff, sle_iff, ha, hhi, z]
    omega
  · rw [if_neg hs]
    replace hs : ¬ IntOp.cmpi .slt s 0#32 = 1#1 := hs
    rw [slt_iff, z] at hs
    rw [sge_iff, sle_iff, hhi, z]
    omega

/-- A select on the word 1 takes its first branch. -/
theorem select_one {α : Type} (a b : α) : Scalar.select 1#1 a b = a := by
  unfold Scalar.select
  exact if_pos rfl

/-- A reduction by `and`, started at 1, of an array of words that are all 1, is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  have key : ∀ (l : List (Fin s.numel)) (r : BitVec 1), r = 1#1 →
      l.foldl (fun r n => IntOp.andi r (x (s.rowMajor.symm n))) r = 1#1 := by
    intro l
    induction l with
    | nil => intro r hr; exact hr
    | cons a l ih =>
      intro r hr
      rw [List.foldl_cons]
      exact ih _ (by rw [hr, hx]; decide)
  exact key _ _ hinit

end Cert.IndexWords
-- ==== Proof.Aggregate.lean ====
/-
  What both programs do after the projection h = x · W, named once. Per graph: the edge list's two rows are the source
  and the destination node of each edge; a negative source index counts from the end of the table; the message of an
  edge is row `src` of h; the messages are summed into their destination rows and the bias is added to every row.
  The kernel's `jnp.take` differs from the reference's `h[src]` in one thing only: it tests whether the (wrapped)
  index is a row of the table and writes a fill value where it is not. When every source index is in range,
  `-n ≤ src < n`, the test answers 1 on every edge and the two reads are the same array.
-/
import proofs.«418985_j48687749268219_1_alg».proof.Proof.Gen.KernelIdeal
import proofs.«418985_j48687749268219_1_alg».proof.Proof.LibIndexWords

noncomputable section

namespace Cert.KernelIdeal.Aggregate

open Cert.KernelIdeal Cert.KernelIdeal.Facts₀ Idealize.ShloMosaic

variable {F : FTy → Type} [FloatOps F]

/-! ## The drug graph: 1000000 edges over 50000 nodes -/

/-- Row 0 of the edge list: each edge's source node. -/
def drugSrc (e : IVec S2x1000000 32) : IVec S1000000 32 :=
  shapeCast _ (extractStridedSlice S1x1000000 ![0, 0] e slices_S2x1000000_S1x1000000_0_0) shapeCasts_S1x1000000_S1000000
/-- Row 1 of the edge list: each edge's destination node. -/
def drugDst (e : IVec S2x1000000 32) : IVec S1000000 32 :=
  shapeCast _ (extractStridedSlice S1x1000000 ![1, 0] e slices_S2x1000000_S1x1000000_1_0) shapeCasts_S1x1000000_S1000000
/-- A negative source index counts from the end of the table: `s < 0 ? s + 50000 : s`. -/
def drugWrap (s : IVec S1000000 32) : IVec S1000000 32 :=
  select (cmpi .slt s (broadcastInDim S1000000 ![] bcast_S_S1000000 (constantI S_ 32 0#32)))
    (addi s (broadcastInDim S1000000 ![] bcast_S_S1000000 (constantI S_ 32 50000#32))) s
/-- The wrapped source indices as the one-column array of row-read start indices. -/
def drugCol (s : IVec S1000000 32) : IVec S1000000x1 32 :=
  broadcastInDim S1000000x1 ![0] bcast_S1000000_S1000000x1_0 (drugWrap s)
/-- Per start index: is it a row of the table, `0 ≤ w ≤ 49999`? -/
def drugInRange (I : IVec S1000000x1 32) : IVec S1000000x1 1 :=
  andi (cmpi .sge I (broadcastInDim S1000000x1 ![] bcast_S_S1000000x1 (constantI S_ 32 0#32)))
    (cmpi .sle I (broadcastInDim S1000000x1 ![0, 1] bcast_S1x1_S1000000x1_0_1 (broadcastInDim S1x1 ![1] bcast_S1_S1x1_1 (constantI S1 32 49999#32))))
/-- Per edge: are all components of its start index (there is one) in range? -/
def drugAll (p : IVec S1000000x1 1) : IVec S1000000 1 :=
  Host.reduce IntOp.andi p (constantI S_ 1 1#1) reducesTo_S1000000x1_S1000000_d1 h_S_
/-- Rows of `h` at the start indices `I`. -/
def drugRowsAt (h : FVec F S50000x64 .f32) (I : IVec S1000000x1 32) : FVec F S1000000x64 .f32 :=
  Host.gather gather_S50000x64_S1000000x1_S1000000x64_1_0_n_n_0_1_164 h I
/-- The rows where the per-edge test `ok` is 1, the fill value elsewhere. -/
def drugFill (h : FVec F S50000x64 .f32) (I : IVec S1000000x1 32) (ok : IVec S1000000 1) : FVec F S1000000x64 .f32 :=
  select (broadcastInDim S1000000x64 ![0] bcast_S1000000_S1000000x64_0 ok) (drugRowsAt h I)
    (broadcastInDim S1000000x64 ![] bcast_S_S1000000x64 (constant S_ .f32 0x7FC00000#32))
/-- The messages as the reference reads them: row `src` of `h` per edge. -/
def drugRows (h : FVec F S50000x64 .f32) (s : IVec S1000000 32) : FVec F S1000000x64 .f32 :=
  drugRowsAt h (drugCol s)
/-- The messages as the kernel reads them: the same row where the index is inside the table, the fill value elsewhere. -/
def drugTake (h : FVec F S50000x64 .f32) (s : IVec S1000000 32) : FVec F S1000000x64 .f32 :=
  drugFill h (drugCol s) (drugAll (drugInRange (drugCol s)))
/-- Each message summed into its destination row of a zero table, and the bias added to every row. -/
def drugSum (msg : FVec F S1000000x64 .f32) (d : IVec S1000000 32) (b : FVec F S64 .f32) : FVec F S50000x64 .f32 :=
  addf (Host.scatterAdd scatter_S50000x64_S1000000x1_S1000000x64_1_0_0_1 (broadcastInDim S50000x64 ![] bcast_S_S50000x64 (constant S_ .f32 0x00000000#32))
      (broadcastInDim S1000000x1 ![0] bcast_S1000000_S1000000x1_0 d) msg)
    (broadcastInDim S50000x64 ![0, 1] bcast_S1x64_S50000x64_0_1 (broadcastInDim S1x64 ![1] bcast_S64_S1x64_1 b))

/-- With every source index in `[-50000, 50000)` the test is 1 on every edge. -/
theorem drugAll_eq_one (s : IVec S1000000 32)
    (hs : ∀ i, IntOp.cmpi .sge (s i) 4294917296#32 = 1#1 ∧ IntOp.cmpi .slt (s i) 50000#32 = 1#1) (e : S1000000.Idx) :
    drugAll (drugInRange (drugCol s)) e = 1#1 := by
  unfold drugAll
  refine Cert.IndexWords.reduce_andi_of_forall _ _ _ _ rfl (fun i => ?_) _
  exact Cert.IndexWords.wrapped_in_range 50000 (by decide) (by decide) 4294917296#32 50000#32 49999#32 _
    (by decide) (by decide) (by decide) (hs _).1 (hs _).2

/-- So the kernel's messages are the reference's. -/
theorem drugTake_eq_rows (h : FVec F S50000x64 .f32) (s : IVec S1000000 32)
    (hs : ∀ i, IntOp.cmpi .sge (s i) 4294917296#32 = 1#1 ∧ IntOp.cmpi .slt (s i) 50000#32 = 1#1) :
    drugTake h s = drugRows h s := by
  funext j
  unfold drugTake drugFill select broadcastInDim
  dsimp only
  rw [drugAll_eq_one s hs]
  exact Cert.IndexWords.select_one _ _

/-! ## The disease graph: 640000 edges over 20000 nodes -/

/-- Row 0 of the edge list: each edge's source node. -/
def disSrc (e : IVec S2x640000 32) : IVec S640000 32 :=
  shapeCast _ (extractStridedSlice S1x640000 ![0, 0] e slices_S2x640000_S1x640000_0_0) shapeCasts_S1x640000_S640000
/-- Row 1 of the edge list: each edge's destination node. -/
def disDst (e : IVec S2x640000 32) : IVec S640000 32 :=
  shapeCast _ (extractStridedSlice S1x640000 ![1, 0] e slices_S2x640000_S1x640000_1_0) shapeCasts_S1x640000_S640000
/-- A negative source index counts from the end of the table: `s < 0 ? s + 20000 : s`. -/
def disWrap (s : IVec S640000 32) : IVec S640000 32 :=
  select (cmpi .slt s (broadcastInDim S640000 ![] bcast_S_S640000 (constantI S_ 32 0#32)))
    (addi s (broadcastInDim S640000 ![] bcast_S_S640000 (constantI S_ 32 20000#32))) s
/-- The wrapped source indices as the one-column array of row-read start indices. -/
def disCol (s : IVec S640000 32) : IVec S640000x1 32 :=
  broadcastInDim S640000x1 ![0] bcast_S640000_S640000x1_0 (disWrap s)
/-- Per start index: is it a row of the table, `0 ≤ w ≤ 19999`? -/
def disInRange (I : IVec S640000x1 32) : IVec S640000x1 1 :=
  andi (cmpi .sge I (broadcastInDim S640000x1 ![] bcast_S_S640000x1 (constantI S_ 32 0#32)))
    (cmpi .sle I (broadcastInDim S640000x1 ![0, 1] bcast_S1x1_S640000x1_0_1 (broadcastInDim S1x1 ![1] bcast_S1_S1x1_1 (constantI S1 32 19999#32))))
/-- Per edge: are all components of its start index (there is one) in range? -/
def disAll (p : IVec S640000x1 1) : IVec S640000 1 :=
  Host.reduce IntOp.andi p (constantI S_ 1 1#1) reducesTo_S640000x1_S640000_d1 h_S_
/-- Rows of `h` at the start indices `I`. -/
def disRowsAt (h : FVec F S20000x64 .f32) (I : IVec S640000x1 32) : FVec F S640000x64 .f32 :=
  Host.gather gather_S20000x64_S640000x1_S640000x64_1_0_n_n_0_1_164 h I
/-- The rows where the per-edge test `ok` is 1, the fill value elsewhere. -/
def disFill (h : FVec F S20000x64 .f32) (I : IVec S640000x1 32) (ok : IVec S640000 1) : FVec F S640000x64 .f32 :=
  select (broadcastInDim S640000x64 ![0] bcast_S640000_S640000x64_0 ok) (disRowsAt h I)
    (broadcastInDim S640000x64 ![] bcast_S_S640000x64 (constant S_ .f32 0x7FC00000#32))
/-- The messages as the reference reads them: row `src` of `h` per edge. -/
def disRows (h : FVec F S20000x64 .f32) (s : IVec S640000 32) : FVec F S640000x64 .f32 :=
  disRowsAt h (disCol s)
/-- The messages as the kernel reads them: the same row where the index is inside the table, the fill value elsewhere. -/
def disTake (h : FVec F S20000x64 .f32) (s : IVec S640000 32) : FVec F S640000x64 .f32 :=
  disFill h (disCol s) (disAll (disInRange (disCol s)))
/-- Each message summed into its destination row of a zero table, and the bias added to every row. -/
def disSum (msg : FVec F S640000x64 .f32) (d : IVec S640000 32) (b : FVec F S64 .f32) : FVec F S20000x64 .f32 :=
  addf (Host.scatterAdd scatter_S20000x64_S640000x1_S640000x64_1_0_0_1 (broadcastInDim S20000x64 ![] bcast_S_S20000x64 (constant S_ .f32 0x00000000#32))
      (broadcastInDim S640000x1 ![0] bcast_S640000_S640000x1_0 d) msg)
    (broadcastInDim S20000x64 ![0, 1] bcast_S1x64_S20000x64_0_1 (broadcastInDim S1x64 ![1] bcast_S64_S1x64_1 b))

/-- With every source index in `[-20000, 20000)` the test is 1 on every edge. -/
theorem disAll_eq_one (s : IVec S640000 32)
    (hs : ∀ i, IntOp.cmpi .sge (s i) 4294947296#32 = 1#1 ∧ IntOp.cmpi .slt (s i) 20000#32 = 1#1) (e : S640000.Idx) :
    disAll (disInRange (disCol s)) e = 1#1 := by
  unfold disAll
  refine Cert.IndexWords.reduce_andi_of_forall _ _ _ _ rfl (fun i => ?_) _
  exact Cert.IndexWords.wrapped_in_range 20000 (by decide) (by decide) 4294947296#32 20000#32 19999#32 _
    (by decide) (by decide) (by decide) (hs _).1 (hs _).2

/-- So the kernel's messages are the reference's. -/
theorem disTake_eq_rows (h : FVec F S20000x64 .f32) (s : IVec S640000 32)
    (hs : ∀ i, IntOp.cmpi .sge (s i) 4294947296#32 = 1#1 ∧ IntOp.cmpi .slt (s i) 20000#32 = 1#1) :
    disTake h s = disRows h s := by
  funext j
  unfold disTake disFill select broadcastInDim
  dsimp only
  rw [disAll_eq_one s hs]
  exact Cert.IndexWords.select_one _ _

end Cert.KernelIdeal.Aggregate

end
-- ==== Proof.DrugProduct.lean ====
/-
  The first pallas_call computes h₁ = x · W₁ for the drug nodes, 5000 rows at a time over a grid of 10 points: at point t
  the body loads rows 5000·t … 5000·t + 4999 of x (all 256 columns) and the whole of W₁ (256 × 64), and stores
  their matrix product into a zero accumulator as rows 5000·t … 5000·t + 4999 of the output. Over the extended reals
  the narrowing of both operands to bf16 is the identity, so entry (r, q) of a block's product is
  Σₖ x(5000·t + r, k) · W₁(k, q); the ten blocks tile the 50000 rows, hence the output array ends holding
  (r, q) ↦ Σₖ x(r, k) · W₁(k, q), whatever contents `V` the buffers had when the call was entered.
-/
import proofs.«418985_j48687749268219_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.DrugProduct

open Cert.KernelIdeal Cert.KernelIdeal.Gen Idealize.ShloMosaic Idealize.ShloMosaic.TcCoe Idealize.SL.Sem
open Idealize.ShloMosaic.Pipeline (Dat)

/-! ## One block -/

/-- Entry (r, k) of the block of x, for entry (r, q) of the block of the product. -/
abbrev xOf (j : S5000x64.Idx) (k : Fin 256) : S5000x256.Idx := fun a => match a with
  | ⟨0, _⟩ => ⟨(j 0).val, (j 0).isLt⟩
  | ⟨1, _⟩ => ⟨k.val, k.isLt⟩
/-- Entry (k, q) of W₁, for entry (r, q) of the block of the product. -/
abbrev wOf (j : S5000x64.Idx) (k : Fin 256) : S256x64.Idx := fun a => match a with
  | ⟨0, _⟩ => ⟨k.val, k.isLt⟩
  | ⟨1, _⟩ => ⟨(j 1).val, (j 1).isLt⟩

theorem lhs_axis0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_axis1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_axis0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_axis1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's stored value at entry (r, q): the product into a zero accumulator is the plain sum over the
    256 contracted positions, the two narrowings being the identity on extended reals. -/
theorem block_product (x : Vec Ideal S5000x256 .f32) (w : Vec Ideal S256x64 .f32) (j : S5000x64.Idx) :
    k0_pay1 (F := Ideal) x w j = ∑ k : Fin 256, x (xOf j k) * w (wOf j k) := by
  unfold k0_pay1
  show FloatOps.matmul (F := Ideal) (φ₁ := .f32) (φ₂ := .f32) dot_S5000x256_S256x64_S5000x64_1_0_0_1_n_n none x w (constant S5000x64 .f32 0x00000000#32) j = _
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = xOf j k := funext fun a => Fin.ext (by
    match a with
    | ⟨0, _⟩ => exact lhs_axis0 _ _
    | ⟨1, _⟩ => exact (lhs_axis1 _ _).trans hk)
  have er : dot_S5000x256_S256x64_S5000x64_1_0_0_1_n_n.rhsIdx j ((ValueIdx.contrEquiv1 dot_S5000x256_S256x64_S5000x64_1_0_0_1_n_n 256 rfl rfl).symm k) = wOf j k := funext fun a => Fin.ext (by
    match a with
    | ⟨0, _⟩ => exact (rhs_axis0 _ _).trans hk
    | ⟨1, _⟩ => exact rhs_axis1 _ _)
  rw [el, er]

/-! ## The whole array -/

/-- Entry (r, k) of x and entry (k, q) of W₁, for entry (r, q) of the product. -/
abbrev xAt (i : S50000x64.Idx) (k : Fin 256) : S50000x256.Idx := fun a => match a with
  | ⟨0, _⟩ => ⟨(i 0).val, (i 0).isLt⟩
  | ⟨1, _⟩ => ⟨k.val, k.isLt⟩
abbrev wAt (i : S50000x64.Idx) (k : Fin 256) : S256x64.Idx := fun a => match a with
  | ⟨0, _⟩ => ⟨k.val, k.isLt⟩
  | ⟨1, _⟩ => ⟨(i 1).val, (i 1).isLt⟩

/-- x · W₁ over the extended reals: entry (r, q) is Σₖ x(r, k) · W₁(k, q). -/
def product (x : Vec Ideal S50000x256 .f32) (w : Vec Ideal S256x64 .f32) : Vec Ideal S50000x64 .f32 :=
  fun i => ∑ k : Fin 256, x (xAt i k) * w (wAt i k)

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows sit at grid point t: x and the output move down by one block of rows per point and
    take whole rows; W₁ stays put. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of x at point t is rows 5000·t … of the array. -/
theorem x_block (c : Dev nD) (t : Fin cfg0.N) (y : S5000x256.Idx) (i : S50000x256.Idx)
    (h0 : (i 0).val = t.val * 5000 + (y 0).val) (h1 : (i 1).val = (y 1).val) :
    iblk0 V c 0 t y = V c main_arg0 i := by
  show V c main_arg0 (((cfg0.win 0).blk t).view.emb y) = V c main_arg0 i
  obtain ⟨e0, e1, e2, e3, e4, e5⟩ := block_positions t
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The block of W₁ at every point is the whole of W₁. -/
theorem w_block (c : Dev nD) (t : Fin cfg0.N) (y : S256x64.Idx) (i : S256x64.Idx)
    (h0 : (i 0).val = (y 0).val) (h1 : (i 1).val = (y 1).val) :
    iblk0 V c 1 t y = V c main_arg2 i := by
  show V c main_arg2 (((cfg0.win 1).blk t).view.emb y) = V c main_arg2 i
  obtain ⟨e0, e1, e2, e3, e4, e5⟩ := block_positions t
  refine congrArg _ (funext fun a => Fin.ext ?_)
  match a with
  | ⟨0, _⟩ => show win0_1.index t (0 : Fin 2) * 256 + 1 * (y 0).val = (i 0).val; omega
  | ⟨1, _⟩ => show win0_1.index t (1 : Fin 2) * 64 + 1 * (y 1).val = (i 1).val; omega

/-- What point t writes back is block t of the product of the arrays as the call finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := block_positions t
  funext j
  show k0_pay1 (F := Ideal) (iblk0 V c 0 t) (iblk0 V c 1 t) j = product (V c main_arg0) (V c main_arg2) (((cfg0.win 2).blk t).view.emb j)
  refine (block_product (iblk0 V c 0 t) (iblk0 V c 1 t) j).trans ?_
  unfold product
  refine Finset.sum_congr rfl fun k _ => ?_
  have hr : ((((cfg0.win 2).blk t).view.emb j) 0).val = t.val * 5000 + (j 0).val := by
    show win0_2.index t (0 : Fin 2) * 5000 + 1 * (j 0).val = _; omega
  have hq : ((((cfg0.win 2).blk t).view.emb j) 1).val = (j 1).val := by
    show win0_2.index t (1 : Fin 2) * 64 + 1 * (j 1).val = _; omega
  rw [x_block V c t (xOf j k) (xAt (((cfg0.win 2).blk t).view.emb j) k) hr rfl,
    w_block V c t (wOf j k) (wAt (((cfg0.win 2).blk t).view.emb j) k) rfl hq]

/-- An index of the output array is in point t's block iff each coordinate is in the block's range. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r lies in the block of point r / 5000: the ten blocks tile the array. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  refine ⟨⟨(i 0).val / 5000, by show (i 0).val / 5000 < 10; omega⟩, flush0_2 _, ?_⟩
  rw [mem_block]
  obtain ⟨e0, e1, e2, e3, e4, e5⟩ := block_positions ⟨(i 0).val / 5000, by show (i 0).val / 5000 < 10; omega⟩
  have e4' : win0_2.index ⟨(i 0).val / 5000, by show (i 0).val / 5000 < 10; omega⟩ (0 : Fin 2) = (i 0).val / 5000 := e4
  intro a
  match a with
  | ⟨0, _⟩ => show win0_2.index _ (0 : Fin 2) * 5000 ≤ (i 0).val ∧ (i 0).val < win0_2.index _ (0 : Fin 2) * 5000 + 5000; omega
  | ⟨1, _⟩ => show win0_2.index _ (1 : Fin 2) * 64 ≤ (i 1).val ∧ (i 1).val < win0_2.index _ (1 : Fin 2) * 64 + 64; omega

/-- The output array after the call: the product of x and W₁ as the call found them. -/
theorem array_eq (c : Dev nD) : (dat0 V c).arrAt 2 cfg0.N = product (V c main_arg0) (V c main_arg2) :=
  (dat0 V c).arrAt_eq_of_cover 2 _ (fun t _ => flushed_eq V c t) covered

end Cert.KernelIdeal.DrugProduct

end
-- ==== Proof.DisProduct.lean ====
/-
  The second pallas_call computes h₂ = x · W₂ for the disease nodes, 5000 rows at a time over a grid of 4 points: at point t
  the body loads rows 5000·t … 5000·t + 4999 of x (all 128 columns) and the whole of W₂ (128 × 64), and stores
  their matrix product into a zero accumulator as rows 5000·t … 5000·t + 4999 of the output. Over the extended reals
  the narrowing of both operands to bf16 is the identity, so entry (r, q) of a block's product is
  Σₖ x(5000·t + r, k) · W₂(k, q); the four blocks tile the 20000 rows, hence the output array ends holding
  (r, q) ↦ Σₖ x(r, k) · W₂(k, q), whatever contents `V` the buffers had when the call was entered.
-/
import proofs.«418985_j48687749268219_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.DisProduct

open Cert.KernelIdeal Cert.KernelIdeal.Gen Idealize.ShloMosaic Idealize.ShloMosaic.TcCoe Idealize.SL.Sem
open Idealize.ShloMosaic.Pipeline (Dat)

/-! ## One block -/

/-- Entry (r, k) of the block of x, for entry (r, q) of the block of the product. -/
abbrev xOf (j : S5000x64.Idx) (k : Fin 128) : S5000x128.Idx := fun a => match a with
  | ⟨0, _⟩ => ⟨(j 0).val, (j 0).isLt⟩
  | ⟨1, _⟩ => ⟨k.val, k.isLt⟩
/-- Entry (k, q) of W₂, for entry (r, q) of the block of the product. -/
abbrev wOf (j : S5000x64.Idx) (k : Fin 128) : S128x64.Idx := fun a => match a with
  | ⟨0, _⟩ => ⟨k.val, k.isLt⟩
  | ⟨1, _⟩ => ⟨(j 1).val, (j 1).isLt⟩

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at entry (r, q): the product into a zero accumulator is the plain sum over the
    128 contracted positions, the two narrowings being the identity on extended reals. -/
theorem block_product (x : Vec Ideal S5000x128 .f32) (w : Vec Ideal S128x64 .f32) (j : S5000x64.Idx) :
    k1_pay1 (F := Ideal) x w j = ∑ k : Fin 128, x (xOf j k) * w (wOf j k) := by
  unfold k1_pay1
  show FloatOps.matmul (F := Ideal) (φ₁ := .f32) (φ₂ := .f32) dot_S5000x128_S128x64_S5000x64_1_0_0_1_n_n none x w (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = xOf j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = wOf j k := funext fun a => Fin.ext (by
    match a with
    | ⟨0, _⟩ => exact (rhs_axis0 _ _).trans hk
    | ⟨1, _⟩ => exact rhs_axis1 _ _)
  rw [el, er]

/-! ## The whole array -/

/-- Entry (r, k) of x and entry (k, q) of W₂, for entry (r, q) of the product. -/
abbrev xAt (i : S20000x64.Idx) (k : Fin 128) : S20000x128.Idx := fun a => match a with
  | ⟨0, _⟩ => ⟨(i 0).val, (i 0).isLt⟩
  | ⟨1, _⟩ => ⟨k.val, k.isLt⟩
abbrev wAt (i : S20000x64.Idx) (k : Fin 128) : S128x64.Idx := fun a => match a with
  | ⟨0, _⟩ => ⟨k.val, k.isLt⟩
  | ⟨1, _⟩ => ⟨(i 1).val, (i 1).isLt⟩

/-- x · W₂ over the extended reals: entry (r, q) is Σₖ x(r, k) · W₂(k, q). -/
def product (x : Vec Ideal S20000x128 .f32) (w : Vec Ideal S128x64 .f32) : Vec Ideal S20000x64 .f32 :=
  fun i => ∑ k : Fin 128, x (xAt i k) * w (wAt i k)

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows sit at grid point t: x and the output move down by one block of rows per point and
    take whole rows; W₂ stays put. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of x at point t is rows 5000·t … of the array. -/
theorem x_block (c : Dev nD) (t : Fin cfg1.N) (y : S5000x128.Idx) (i : S20000x128.Idx)
    (h0 : (i 0).val = t.val * 5000 + (y 0).val) (h1 : (i 1).val = (y 1).val) :
    iblk1 V c 0 t y = V c main_arg1 i := by
  show V c main_arg1 (((cfg1.win 0).blk t).view.emb y) = V c main_arg1 i
  obtain ⟨e0, e1, e2, e3, e4, e5⟩ := block_positions t
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The block of W₂ at every point is the whole of W₂. -/
theorem w_block (c : Dev nD) (t : Fin cfg1.N) (y : S128x64.Idx) (i : S128x64.Idx)
    (h0 : (i 0).val = (y 0).val) (h1 : (i 1).val = (y 1).val) :
    iblk1 V c 1 t y = V c main_arg4 i := by
  show V c main_arg4 (((cfg1.win 1).blk t).view.emb y) = V c main_arg4 i
  obtain ⟨e0, e1, e2, e3, e4, e5⟩ := block_positions t
  refine congrArg _ (funext fun a => Fin.ext ?_)
  match a with
  | ⟨0, _⟩ => show win1_1.index t (0 : Fin 2) * 128 + 1 * (y 0).val = (i 0).val; omega
  | ⟨1, _⟩ => show win1_1.index t (1 : Fin 2) * 64 + 1 * (y 1).val = (i 1).val; omega

/-- What point t writes back is block t of the product of the arrays as the call finds them. -/
theorem flushed_eq (c : Dev nD) (t : Fin cfg1.N) :
    (dat1 V c).flushed 2 t = ((cfg1.win 2).blk t).view.read (Elt Ideal) (product (V c main_arg1) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x64) zero_offsets]
  obtain ⟨e0, e1, e2, e3, e4, e5⟩ := block_positions t
  funext j
  show k1_pay1 (F := Ideal) (iblk1 V c 0 t) (iblk1 V c 1 t) j = product (V c main_arg1) (V c main_arg4) (((cfg1.win 2).blk t).view.emb j)
  refine (block_product (iblk1 V c 0 t) (iblk1 V c 1 t) j).trans ?_
  unfold product
  refine Finset.sum_congr rfl fun k _ => ?_
  have hr : ((((cfg1.win 2).blk t).view.emb j) 0).val = t.val * 5000 + (j 0).val := by
    show win1_2.index t (0 : Fin 2) * 5000 + 1 * (j 0).val = _; omega
  have hq : ((((cfg1.win 2).blk t).view.emb j) 1).val = (j 1).val := by
    show win1_2.index t (1 : Fin 2) * 64 + 1 * (j 1).val = _; omega
  rw [x_block V c t (xOf j k) (xAt (((cfg1.win 2).blk t).view.emb j) k) hr rfl,
    w_block V c t (wOf j k) (wAt (((cfg1.win 2).blk t).view.emb j) k) rfl hq]

/-- An index of the output array is in point t's block iff each coordinate is in the block's range. -/
theorem mem_block (t : Fin cfg1.N) (i : S20000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v1).slice (win1_2.rect t)).set ↔ _
  rw [View.set_slice_whole, Rect.mem_set_unit]
  exact Iff.rfl

/-- Row r lies in the block of point r / 5000: the four blocks tile the array. -/
theorem covered (i : S20000x64.Idx) : ∃ t : Fin cfg1.N, (cfg1.win 2).flush t = true ∧ i ∈ ((cfg1.win 2).blk t).view.set := by
  have hi0 : (i 0).val < 20000 := (i 0).isLt
  have hi1 : (i 1).val < 64 := (i 1).isLt
  refine ⟨⟨(i 0).val / 5000, by show (i 0).val / 5000 < 4; omega⟩, flush1_2 _, ?_⟩
  rw [mem_block]
  obtain ⟨e0, e1, e2, e3, e4, e5⟩ := block_positions ⟨(i 0).val / 5000, by show (i 0).val / 5000 < 4; omega⟩
  have e4' : win1_2.index ⟨(i 0).val / 5000, by show (i 0).val / 5000 < 4; omega⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 64 ≤ (i 1).val ∧ (i 1).val < win1_2.index _ (1 : Fin 2) * 64 + 64; omega

/-- The output array after the call: the product of x and W₂ as the call found them. -/
theorem array_eq (c : Dev nD) : (dat1 V c).arrAt 2 cfg1.N = product (V c main_arg1) (V c main_arg4) :=
  (dat1 V c).arrAt_eq_of_cover 2 _ (fun t _ => flushed_eq V c t) covered

end Cert.KernelIdeal.DisProduct

end
-- ==== Proof.LibTypedRefs.lean ====
/-
  GENERAL LEMMAS (no program imported): the operations of a function jax outlined (`jnp.take`, `jnp.where`, …) are printed
  over typed references, and each moves its operands from their buffers' types to the values' types and its result back
  (`TRef.ofBuf`, `TRef.toBuf`: transports along an equation of types that holds by computation at a literal buffer).
  Reading such a stretch of operations off with the result lemmas leaves those transports around every value, and a
  comparison by unfolding through them can wander into a reduction over a full-size array. They are removed without
  unfolding anything: `ofBuf_toBuf` cancels a round trip for ANY typed reference (so it rewrites syntactically), and
  `toBuf_lit` removes a lone one at a literal reference. With the library's `StableHlo.after_append` a long stretch is read in
  short runs, each run's values stated with their transports.
-/
import Idealize.ShloMosaic.Lib.StableHlo.Run

namespace Cert.TypedRefs

open Idealize.ShloMosaic Idealize.ShloMosaic.StableHlo

variable {τ : Topo} {sig : RefSig} {Val : EltTy → Type} {T : BufTy}

/-- A value moved to a typed reference's buffer type and back is itself. -/
theorem ofBuf_toBuf (x : TRef sig T) (v : T.Contents Val) : x.ofBuf (x.toBuf v) = v := by
  obtain ⟨r, h, hd, hu⟩ := x
  subst h
  rfl

/-- A value at a typed reference's type, moved to its buffer's type, is the same value there (the two types are one at a
    literal reference, which is what lets `w` be written). -/
theorem toBuf_lit (x : TRef sig T) (v : T.Contents Val) (w : x.ref.ty.Contents Val) (h : HEq v w) : x.toBuf v = w :=
  eq_of_heq ((cast_heq _ v).trans h)

end Cert.TypedRefs
-- ==== Proof.TakeDrug.lean ====
/-
  The kernel's `jnp.take` on the drug graph, read off its 23 host operations over any buffer contents `W`: from the
  projection h (in the first call's output buffer) and the source indices s it writes `drugTake h s` into its result
  buffer. The operations are read in four runs — the start-index column, the range test, the per-edge `all`, the
  filled row read — each a few operations, and the runs composed; a buffer a run does not write keeps its contents.
  The operations of a function jax outlined move every value to its buffer's type and back (the identity at a
  literal buffer): those round trips are cancelled in pairs, and only the stretch's inputs and result carry one.
-/
import proofs.«418985_j48687749268219_1_alg».proof.Proof.Gen.KernelIdeal.Frame
import proofs.«418985_j48687749268219_1_alg».proof.Proof.Aggregate
import proofs.«418985_j48687749268219_1_alg».proof.Proof.LibTypedRefs
import Idealize.ShloMosaic.Lib.StableHlo.Run
import Idealize.ShloMosaic.PureOps.Ideal

noncomputable section

namespace Cert.KernelIdeal.TakeDrug

open Cert.KernelIdeal Cert.KernelIdeal.Gen Cert.KernelIdeal.Aggregate
open Idealize.ShloMosaic Idealize.ShloMosaic.TcCoe Idealize.SL.Sem Idealize.ShloMosaic.StableHlo
open Cert.TypedRefs (ofBuf_toBuf)

/-- The four runs of the stretch. -/
abbrev runCol : List (HloOp τ sig (Elt Ideal)) := (hostOps2_1 (F := Ideal)).take 8
abbrev runRange : List (HloOp τ sig (Elt Ideal)) := ((hostOps2_1 (F := Ideal)).drop 8).take 8
abbrev runAll : List (HloOp τ sig (Elt Ideal)) := ((hostOps2_1 (F := Ideal)).drop 16).take 2
abbrev runFill : List (HloOp τ sig (Elt Ideal)) := (hostOps2_1 (F := Ideal)).drop 18

theorem runs_eq : hostOps2_1 (F := Ideal) = runCol ++ (runRange ++ (runAll ++ runFill)) := rfl

variable (W : Valuation τ sig (Elt Ideal))

/-! ## What each run writes -/

theorem col_eq (s : IVec S1000000 32)
    (hs : W (Proc.devRef .tc main_v3) = (TRef.of (T := ⟨S1000000, .i32⟩) main_v3).toBuf s) :
    StableHlo.after runCol W (Proc.devRef .tc main_call0_v5) = (TRef.of (T := ⟨S1000000x1, .i32⟩) main_call0_v5).toBuf (drugCol s) := by
  dsimp only [runCol, hostOps2_1, List.take]
  after_results_simp
  rw [hs]
  simp only [ofBuf_toBuf]
  rfl

theorem range_eq (I : IVec S1000000x1 32)
    (hI : W (Proc.devRef .tc main_call0_v5) = (TRef.of (T := ⟨S1000000x1, .i32⟩) main_call0_v5).toBuf I) :
    StableHlo.after runRange W (Proc.devRef .tc main_call0_v11) = (TRef.of (T := ⟨S1000000x1, .i1⟩) main_call0_v11).toBuf (drugInRange I) := by
  dsimp only [runRange, hostOps2_1, List.take, List.drop]
  after_results_simp
  rw [hI]
  simp only [ofBuf_toBuf]
  rfl

theorem all_eq (p : IVec S1000000x1 1)
    (hp : W (Proc.devRef .tc main_call0_v11) = (TRef.of (T := ⟨S1000000x1, .i1⟩) main_call0_v11).toBuf p) :
    StableHlo.after runAll W (Proc.devRef .tc main_call0_v12) = (TRef.of (T := ⟨S1000000, .i1⟩) main_call0_v12).toBuf (drugAll p) := by
  dsimp only [runAll, hostOps2_1, List.take, List.drop]
  after_results_simp
  rw [hp]
  simp only [ofBuf_toBuf]
  rfl

theorem fill_eq (h : FVec Ideal S50000x64 .f32) (I : IVec S1000000x1 32) (ok : IVec S1000000 1)
    (hh : W (Proc.devRef .tc main_v0) = (TRef.of (T := ⟨S50000x64, .f32⟩) main_v0).toBuf h)
    (hI : W (Proc.devRef .tc main_call0_v5) = (TRef.of (T := ⟨S1000000x1, .i32⟩) main_call0_v5).toBuf I)
    (hok : W (Proc.devRef .tc main_call0_v12) = (TRef.of (T := ⟨S1000000, .i1⟩) main_call0_v12).toBuf ok) :
    StableHlo.after runFill W (Proc.devRef .tc main_v6) = (TRef.of (T := ⟨S1000000x64, .f32⟩) main_v6).toBuf (drugFill h I ok) := by
  dsimp only [runFill, hostOps2_1, List.drop]
  after_results_simp
  rw [hh, hI, hok]
  simp only [ofBuf_toBuf]
  rfl

/-! ## What each run keeps -/

theorem col_keeps_h : StableHlo.after runCol W (Proc.devRef .tc main_v0) = W (Proc.devRef .tc main_v0) := by
  dsimp only [runCol, hostOps2_1, List.take]
  after_results_simp
theorem range_keeps_h : StableHlo.after runRange W (Proc.devRef .tc main_v0) = W (Proc.devRef .tc main_v0) := by
  dsimp only [runRange, hostOps2_1, List.take, List.drop]
  after_results_simp
theorem all_keeps_h : StableHlo.after runAll W (Proc.devRef .tc main_v0) = W (Proc.devRef .tc main_v0) := by
  dsimp only [runAll, hostOps2_1, List.take, List.drop]
  after_results_simp
theorem range_keeps_col : StableHlo.after runRange W (Proc.devRef .tc main_call0_v5) = W (Proc.devRef .tc main_call0_v5) := by
  dsimp only [runRange, hostOps2_1, List.take, List.drop]
  after_results_simp
theorem all_keeps_col : StableHlo.after runAll W (Proc.devRef .tc main_call0_v5) = W (Proc.devRef .tc main_call0_v5) := by
  dsimp only [runAll, hostOps2_1, List.take, List.drop]
  after_results_simp

/-! ## The stretch -/

/-- From h in the projection's buffer and s in the source indices' buffer, the stretch writes `drugTake h s`. -/
theorem take_eq (h : FVec Ideal S50000x64 .f32) (s : IVec S1000000 32)
    (hh : W (Proc.devRef .tc main_v0) = (TRef.of (T := ⟨S50000x64, .f32⟩) main_v0).toBuf h)
    (hs : W (Proc.devRef .tc main_v3) = (TRef.of (T := ⟨S1000000, .i32⟩) main_v3).toBuf s) :
    StableHlo.after (hostOps2_1 (F := Ideal)) W (Proc.devRef .tc main_v6)
      = (TRef.of (T := ⟨S1000000x64, .f32⟩) main_v6).toBuf (drugTake h s) := by
  rw [runs_eq, after_append, after_append, after_append]
  have hcol := col_eq W s hs
  exact fill_eq _ h (drugCol s) (drugAll (drugInRange (drugCol s)))
    ((all_keeps_h _).trans ((range_keeps_h _).trans ((col_keeps_h W).trans hh)))
    ((all_keeps_col _).trans ((range_keeps_col _).trans hcol))
    (all_eq _ _ (range_eq _ _ hcol))

end Cert.KernelIdeal.TakeDrug

end
-- ==== Proof.TakeDis.lean ====
/-
  The kernel's `jnp.take` on the disease graph, read off its 23 host operations over any buffer contents `W`: from the
  projection h (in the second call's output buffer) and the source indices s it writes `disTake h s` into its result
  buffer. The operations are read in four runs — the start-index column, the range test, the per-edge `all`, the
  filled row read — each a few operations, and the runs composed; a buffer a run does not write keeps its contents.
  The operations of a function jax outlined move every value to its buffer's type and back (the identity at a
  literal buffer): those round trips are cancelled in pairs, and only the stretch's inputs and result carry one.
-/
import proofs.«418985_j48687749268219_1_alg».proof.Proof.Gen.KernelIdeal.Frame
import proofs.«418985_j48687749268219_1_alg».proof.Proof.Aggregate
import proofs.«418985_j48687749268219_1_alg».proof.Proof.LibTypedRefs
import Idealize.ShloMosaic.Lib.StableHlo.Run
import Idealize.ShloMosaic.PureOps.Ideal

noncomputable section

namespace Cert.KernelIdeal.TakeDis

open Cert.KernelIdeal Cert.KernelIdeal.Gen Cert.KernelIdeal.Aggregate
open Idealize.ShloMosaic Idealize.ShloMosaic.TcCoe Idealize.SL.Sem Idealize.ShloMosaic.StableHlo
open Cert.TypedRefs (ofBuf_toBuf)

/-- The four runs of the stretch. -/
abbrev runCol : List (HloOp τ sig (Elt Ideal)) := (hostOps2_3 (F := Ideal)).take 8
abbrev runRange : List (HloOp τ sig (Elt Ideal)) := ((hostOps2_3 (F := Ideal)).drop 8).take 8
abbrev runAll : List (HloOp τ sig (Elt Ideal)) := ((hostOps2_3 (F := Ideal)).drop 16).take 2
abbrev runFill : List (HloOp τ sig (Elt Ideal)) := (hostOps2_3 (F := Ideal)).drop 18

theorem runs_eq : hostOps2_3 (F := Ideal) = runCol ++ (runRange ++ (runAll ++ runFill)) := rfl

variable (W : Valuation τ sig (Elt Ideal))

/-! ## What each run writes -/

theorem col_eq (s : IVec S640000 32)
    (hs : W (Proc.devRef .tc main_v14) = (TRef.of (T := ⟨S640000, .i32⟩) main_v14).toBuf s) :
    StableHlo.after runCol W (Proc.devRef .tc main_call1_v5) = (TRef.of (T := ⟨S640000x1, .i32⟩) main_call1_v5).toBuf (disCol s) := by
  dsimp only [runCol, hostOps2_3, List.take]
  after_results_simp
  rw [hs]
  simp only [ofBuf_toBuf]
  rfl

theorem range_eq (I : IVec S640000x1 32)
    (hI : W (Proc.devRef .tc main_call1_v5) = (TRef.of (T := ⟨S640000x1, .i32⟩) main_call1_v5).toBuf I) :
    StableHlo.after runRange W (Proc.devRef .tc main_call1_v11) = (TRef.of (T := ⟨S640000x1, .i1⟩) main_call1_v11).toBuf (disInRange I) := by
  dsimp only [runRange, hostOps2_3, List.take, List.drop]
  after_results_simp
  rw [hI]
  simp only [ofBuf_toBuf]
  rfl

theorem all_eq (p : IVec S640000x1 1)
    (hp : W (Proc.devRef .tc main_call1_v11) = (TRef.of (T := ⟨S640000x1, .i1⟩) main_call1_v11).toBuf p) :
    StableHlo.after runAll W (Proc.devRef .tc main_call1_v12) = (TRef.of (T := ⟨S640000, .i1⟩) main_call1_v12).toBuf (disAll p) := by
  dsimp only [runAll, hostOps2_3, List.take, List.drop]
  after_results_simp
  rw [hp]
  simp only [ofBuf_toBuf]
  rfl

theorem fill_eq (h : FVec Ideal S20000x64 .f32) (I : IVec S640000x1 32) (ok : IVec S640000 1)
    (hh : W (Proc.devRef .tc main_v1) = (TRef.of (T := ⟨S20000x64, .f32⟩) main_v1).toBuf h)
    (hI : W (Proc.devRef .tc main_call1_v5) = (TRef.of (T := ⟨S640000x1, .i32⟩) main_call1_v5).toBuf I)
    (hok : W (Proc.devRef .tc main_call1_v12) = (TRef.of (T := ⟨S640000, .i1⟩) main_call1_v12).toBuf ok) :
    StableHlo.after runFill W (Proc.devRef .tc main_v17) = (TRef.of (T := ⟨S640000x64, .f32⟩) main_v17).toBuf (disFill h I ok) := by
  dsimp only [runFill, hostOps2_3, List.drop]
  after_results_simp
  rw [hh, hI, hok]
  simp only [ofBuf_toBuf]
  rfl

/-! ## What each run keeps -/

theorem col_keeps_h : StableHlo.after runCol W (Proc.devRef .tc main_v1) = W (Proc.devRef .tc main_v1) := by
  dsimp only [runCol, hostOps2_3, List.take]
  after_results_simp
theorem range_keeps_h : StableHlo.after runRange W (Proc.devRef .tc main_v1) = W (Proc.devRef .tc main_v1) := by
  dsimp only [runRange, hostOps2_3, List.take, List.drop]
  after_results_simp
theorem all_keeps_h : StableHlo.after runAll W (Proc.devRef .tc main_v1) = W (Proc.devRef .tc main_v1) := by
  dsimp only [runAll, hostOps2_3, List.take, List.drop]
  after_results_simp
theorem range_keeps_col : StableHlo.after runRange W (Proc.devRef .tc main_call1_v5) = W (Proc.devRef .tc main_call1_v5) := by
  dsimp only [runRange, hostOps2_3, List.take, List.drop]
  after_results_simp
theorem all_keeps_col : StableHlo.after runAll W (Proc.devRef .tc main_call1_v5) = W (Proc.devRef .tc main_call1_v5) := by
  dsimp only [runAll, hostOps2_3, List.take, List.drop]
  after_results_simp

/-! ## The stretch -/

/-- From h in the projection's buffer and s in the source indices' buffer, the stretch writes `disTake h s`. -/
theorem take_eq (h : FVec Ideal S20000x64 .f32) (s : IVec S640000 32)
    (hh : W (Proc.devRef .tc main_v1) = (TRef.of (T := ⟨S20000x64, .f32⟩) main_v1).toBuf h)
    (hs : W (Proc.devRef .tc main_v14) = (TRef.of (T := ⟨S640000, .i32⟩) main_v14).toBuf s) :
    StableHlo.after (hostOps2_3 (F := Ideal)) W (Proc.devRef .tc main_v17)
      = (TRef.of (T := ⟨S640000x64, .f32⟩) main_v17).toBuf (disTake h s) := by
  rw [runs_eq, after_append, after_append, after_append]
  have hcol := col_eq W s hs
  exact fill_eq _ h (disCol s) (disAll (disInRange (disCol s)))
    ((all_keeps_h _).trans ((range_keeps_h _).trans ((col_keeps_h W).trans hh)))
    ((all_keeps_col _).trans ((range_keeps_col _).trans hcol))
    (all_eq _ _ (range_eq _ _ hcol))

end Cert.KernelIdeal.TakeDis

end
-- ==== Proof.Tail.lean ====
/-
  The kernel program after its two pallas_calls: five stretches of host operations on the two projections. Read off in
  order, over any buffer contents: the first stretch cuts the drug edge list into its source and destination rows; the
  second is `jnp.take` on the drug graph; the third sums the messages into destination rows and adds the bias (the first
  result) and cuts the disease edge list; the fourth is `jnp.take` on the disease graph; the fifth sums and adds the bias
  (the second result). A buffer a stretch does not write keeps its contents. Before them: neither call writes an
  argument of @main, the second call leaves the first call's output alone, and each call's output array is the product
  computed block by block.
-/
import proofs.«418985_j48687749268219_1_alg».proof.Proof.Gen.KernelIdeal.Frame
import proofs.«418985_j48687749268219_1_alg».proof.Proof.Aggregate
import proofs.«418985_j48687749268219_1_alg».proof.Proof.DrugProduct
import proofs.«418985_j48687749268219_1_alg».proof.Proof.DisProduct
import proofs.«418985_j48687749268219_1_alg».proof.Proof.TakeDrug
import proofs.«418985_j48687749268219_1_alg».proof.Proof.TakeDis
import Idealize.ShloMosaic.Lib.StableHlo.Run

noncomputable section

namespace Cert.KernelIdeal.Tail

open Cert.KernelIdeal Cert.KernelIdeal.Gen Cert.KernelIdeal.Aggregate
open Idealize.ShloMosaic Idealize.ShloMosaic.TcCoe Idealize.SL.Sem Idealize.ShloMosaic.StableHlo
open Cert.TypedRefs (toBuf_lit)

/-! ## The stretches, over any contents -/

section Stretches

variable (V : Valuation τ sig (Elt Ideal))

theorem ops0_src : StableHlo.after (hostOps2 (F := Ideal)) V (Proc.devRef .tc main_v3) = drugSrc (V (Proc.devRef .tc main_arg6)) := by
  dsimp only [hostOps2]; after_results_simp; rfl
theorem ops0_dst : StableHlo.after (hostOps2 (F := Ideal)) V (Proc.devRef .tc main_v5) = drugDst (V (Proc.devRef .tc main_arg6)) := by
  dsimp only [hostOps2]; after_results_simp; rfl
theorem ops0_keeps_h1 : StableHlo.after (hostOps2 (F := Ideal)) V (Proc.devRef .tc main_v0) = V (Proc.devRef .tc main_v0) := by
  dsimp only [hostOps2]; after_results_simp
theorem ops0_keeps_h2 : StableHlo.after (hostOps2 (F := Ideal)) V (Proc.devRef .tc main_v1) = V (Proc.devRef .tc main_v1) := by
  dsimp only [hostOps2]; after_results_simp
theorem ops0_keeps_b1 : StableHlo.after (hostOps2 (F := Ideal)) V (Proc.devRef .tc main_arg3) = V (Proc.devRef .tc main_arg3) := by
  dsimp only [hostOps2]; after_results_simp
theorem ops0_keeps_b2 : StableHlo.after (hostOps2 (F := Ideal)) V (Proc.devRef .tc main_arg5) = V (Proc.devRef .tc main_arg5) := by
  dsimp only [hostOps2]; after_results_simp
theorem ops0_keeps_e2 : StableHlo.after (hostOps2 (F := Ideal)) V (Proc.devRef .tc main_arg7) = V (Proc.devRef .tc main_arg7) := by
  dsimp only [hostOps2]; after_results_simp

theorem ops1_keeps_dst : StableHlo.after (hostOps2_1 (F := Ideal)) V (Proc.devRef .tc main_v5) = V (Proc.devRef .tc main_v5) := by
  dsimp only [hostOps2_1]; after_results_simp
theorem ops1_keeps_b1 : StableHlo.after (hostOps2_1 (F := Ideal)) V (Proc.devRef .tc main_arg3) = V (Proc.devRef .tc main_arg3) := by
  dsimp only [hostOps2_1]; after_results_simp
theorem ops1_keeps_h2 : StableHlo.after (hostOps2_1 (F := Ideal)) V (Proc.devRef .tc main_v1) = V (Proc.devRef .tc main_v1) := by
  dsimp only [hostOps2_1]; after_results_simp
theorem ops1_keeps_b2 : StableHlo.after (hostOps2_1 (F := Ideal)) V (Proc.devRef .tc main_arg5) = V (Proc.devRef .tc main_arg5) := by
  dsimp only [hostOps2_1]; after_results_simp
theorem ops1_keeps_e2 : StableHlo.after (hostOps2_1 (F := Ideal)) V (Proc.devRef .tc main_arg7) = V (Proc.devRef .tc main_arg7) := by
  dsimp only [hostOps2_1]; after_results_simp

theorem ops2_sum : StableHlo.after (hostOps2_2 (F := Ideal)) V (Proc.devRef .tc main_v12)
    = drugSum (F := Ideal) (V (Proc.devRef .tc main_v6)) (V (Proc.devRef .tc main_v5)) (V (Proc.devRef .tc main_arg3)) := by
  dsimp only [hostOps2_2]; after_results_simp; rfl
theorem ops2_src : StableHlo.after (hostOps2_2 (F := Ideal)) V (Proc.devRef .tc main_v14) = disSrc (V (Proc.devRef .tc main_arg7)) := by
  dsimp only [hostOps2_2]; after_results_simp; rfl
theorem ops2_dst : StableHlo.after (hostOps2_2 (F := Ideal)) V (Proc.devRef .tc main_v16) = disDst (V (Proc.devRef .tc main_arg7)) := by
  dsimp only [hostOps2_2]; after_results_simp; rfl
theorem ops2_keeps_h2 : StableHlo.after (hostOps2_2 (F := Ideal)) V (Proc.devRef .tc main_v1) = V (Proc.devRef .tc main_v1) := by
  dsimp only [hostOps2_2]; after_results_simp
theorem ops2_keeps_b2 : StableHlo.after (hostOps2_2 (F := Ideal)) V (Proc.devRef .tc main_arg5) = V (Proc.devRef .tc main_arg5) := by
  dsimp only [hostOps2_2]; after_results_simp

theorem ops3_keeps_r1 : StableHlo.after (hostOps2_3 (F := Ideal)) V (Proc.devRef .tc main_v12) = V (Proc.devRef .tc main_v12) := by
  dsimp only [hostOps2_3]; after_results_simp
theorem ops3_keeps_dst : StableHlo.after (hostOps2_3 (F := Ideal)) V (Proc.devRef .tc main_v16) = V (Proc.devRef .tc main_v16) := by
  dsimp only [hostOps2_3]; after_results_simp
theorem ops3_keeps_b2 : StableHlo.after (hostOps2_3 (F := Ideal)) V (Proc.devRef .tc main_arg5) = V (Proc.devRef .tc main_arg5) := by
  dsimp only [hostOps2_3]; after_results_simp

theorem ops4_sum : StableHlo.after (hostOps2_4 (F := Ideal)) V (Proc.devRef .tc main_v23)
    = disSum (F := Ideal) (V (Proc.devRef .tc main_v17)) (V (Proc.devRef .tc main_v16)) (V (Proc.devRef .tc main_arg5)) := by
  dsimp only [hostOps2_4]; after_results_simp; rfl
theorem ops4_keeps_r1 : StableHlo.after (hostOps2_4 (F := Ideal)) V (Proc.devRef .tc main_v12) = V (Proc.devRef .tc main_v12) := by
  dsimp only [hostOps2_4]; after_results_simp

end Stretches

variable (m : (ℓ : Loc nD τ sig) → Buf (Elt Ideal) ℓ) (ρ : Dev nD → PrngReg)

/-! ## What the host operations find after the two calls -/

theorem kept_b1 (c : Dev nD) : W2 m ρ c (Proc.devRef .tc main_arg3) = m ((c : Thread nD τ).loc main_arg3) :=
  (W2_of_ne m ρ c main_arg3 (by decide)).trans (W1_of_ne m ρ c main_arg3 (by decide))
theorem kept_b2 (c : Dev nD) : W2 m ρ c (Proc.devRef .tc main_arg5) = m ((c : Thread nD τ).loc main_arg5) :=
  (W2_of_ne m ρ c main_arg5 (by decide)).trans (W1_of_ne m ρ c main_arg5 (by decide))
theorem kept_edges1 (c : Dev nD) : W2 m ρ c (Proc.devRef .tc main_arg6) = m ((c : Thread nD τ).loc main_arg6) :=
  (W2_of_ne m ρ c main_arg6 (by decide)).trans (W1_of_ne m ρ c main_arg6 (by decide))
theorem kept_edges2 (c : Dev nD) : W2 m ρ c (Proc.devRef .tc main_arg7) = m ((c : Thread nD τ).loc main_arg7) :=
  (W2_of_ne m ρ c main_arg7 (by decide)).trans (W1_of_ne m ρ c main_arg7 (by decide))

/-- The first call's output, which the second call does not touch: x₁ · W₁ of the arguments. -/
theorem h1_eq (c : Dev nD) : W2 m ρ c (Proc.devRef .tc main_v0)
    = DrugProduct.product (m ((c : Thread nD τ).loc main_arg0)) (m ((c : Thread nD τ).loc main_arg2)) :=
  (W2_of_ne m ρ c main_v0 (by decide)).trans ((W1_arr m ρ c 2).trans (DrugProduct.array_eq (V0 m ρ) c))

/-- The second call's output: x₂ · W₂ of the arguments (which the first call did not touch). -/
theorem h2_eq (c : Dev nD) : W2 m ρ c (Proc.devRef .tc main_v1)
    = DisProduct.product (m ((c : Thread nD τ).loc main_arg1)) (m ((c : Thread nD τ).loc main_arg4)) := by
  refine (W2_arr m ρ c 2).trans ((DisProduct.array_eq (V1 m ρ) c).trans ?_)
  rw [show V1 m ρ c main_arg1 = m ((c : Thread nD τ).loc main_arg1) from W1_of_ne m ρ c main_arg1 (by decide),
    show V1 m ρ c main_arg4 = m ((c : Thread nD τ).loc main_arg4) from W1_of_ne m ρ c main_arg4 (by decide)]

/-! ## The two results -/

/-- The drug messages as the kernel reads them, in their buffer after the second stretch. -/
theorem take1 (c : Dev nD) : W4 m ρ c (Proc.devRef .tc main_v6)
    = drugTake (F := Ideal) (DrugProduct.product (m ((c : Thread nD τ).loc main_arg0)) (m ((c : Thread nD τ).loc main_arg2))) (drugSrc (m ((c : Thread nD τ).loc main_arg6))) := by
  have hh : W3 m ρ c (Proc.devRef .tc main_v0) = DrugProduct.product (m ((c : Thread nD τ).loc main_arg0)) (m ((c : Thread nD τ).loc main_arg2)) :=
    (ops0_keeps_h1 (W2 m ρ c)).trans (h1_eq m ρ c)
  have hs : W3 m ρ c (Proc.devRef .tc main_v3) = drugSrc (m ((c : Thread nD τ).loc main_arg6)) :=
    (ops0_src (W2 m ρ c)).trans (congrArg drugSrc (kept_edges1 m ρ c))
  exact (TakeDrug.take_eq (W3 m ρ c) _ _ (hh.trans (toBuf_lit (TRef.of (T := ⟨S50000x64, .f32⟩) main_v0) _ _ HEq.rfl).symm)
      (hs.trans (toBuf_lit (Val := Elt Ideal) (TRef.of (T := ⟨S1000000, .i32⟩) main_v3) _ _ HEq.rfl).symm)).trans
    (toBuf_lit _ _ _ HEq.rfl)

/-- The first result: the drug graph's aggregation, rows read the kernel's way. -/
theorem result1 (c : Dev nD) : W7 m ρ c (Proc.devRef .tc main_v12)
    = drugSum (F := Ideal) (drugTake (F := Ideal) (DrugProduct.product (m ((c : Thread nD τ).loc main_arg0)) (m ((c : Thread nD τ).loc main_arg2))) (drugSrc (m ((c : Thread nD τ).loc main_arg6))))
        (drugDst (m ((c : Thread nD τ).loc main_arg6))) (m ((c : Thread nD τ).loc main_arg3)) := by
  refine (ops4_keeps_r1 (W6 m ρ c)).trans ((ops3_keeps_r1 (W5 m ρ c)).trans ((ops2_sum (W4 m ρ c)).trans ?_))
  have hd : W4 m ρ c (Proc.devRef .tc main_v5) = drugDst (m ((c : Thread nD τ).loc main_arg6)) :=
    (ops1_keeps_dst (W3 m ρ c)).trans ((ops0_dst (W2 m ρ c)).trans (congrArg drugDst (kept_edges1 m ρ c)))
  have hb : W4 m ρ c (Proc.devRef .tc main_arg3) = (m ((c : Thread nD τ).loc main_arg3)) :=
    (ops1_keeps_b1 (W3 m ρ c)).trans ((ops0_keeps_b1 (W2 m ρ c)).trans (kept_b1 m ρ c))
  rw [take1 m ρ c, hd, hb]

/-- The disease messages as the kernel reads them, in their buffer after the fourth stretch. -/
theorem take2 (c : Dev nD) : W6 m ρ c (Proc.devRef .tc main_v17)
    = disTake (F := Ideal) (DisProduct.product (m ((c : Thread nD τ).loc main_arg1)) (m ((c : Thread nD τ).loc main_arg4))) (disSrc (m ((c : Thread nD τ).loc main_arg7))) := by
  have he : W4 m ρ c (Proc.devRef .tc main_arg7) = (m ((c : Thread nD τ).loc main_arg7)) :=
    (ops1_keeps_e2 (W3 m ρ c)).trans ((ops0_keeps_e2 (W2 m ρ c)).trans (kept_edges2 m ρ c))
  have hh : W5 m ρ c (Proc.devRef .tc main_v1) = DisProduct.product (m ((c : Thread nD τ).loc main_arg1)) (m ((c : Thread nD τ).loc main_arg4)) :=
    (ops2_keeps_h2 (W4 m ρ c)).trans ((ops1_keeps_h2 (W3 m ρ c)).trans ((ops0_keeps_h2 (W2 m ρ c)).trans (h2_eq m ρ c)))
  have hs : W5 m ρ c (Proc.devRef .tc main_v14) = disSrc (m ((c : Thread nD τ).loc main_arg7)) :=
    (ops2_src (W4 m ρ c)).trans (congrArg disSrc he)
  exact (TakeDis.take_eq (W5 m ρ c) _ _ (hh.trans (toBuf_lit (TRef.of (T := ⟨S20000x64, .f32⟩) main_v1) _ _ HEq.rfl).symm)
      (hs.trans (toBuf_lit (Val := Elt Ideal) (TRef.of (T := ⟨S640000, .i32⟩) main_v14) _ _ HEq.rfl).symm)).trans
    (toBuf_lit _ _ _ HEq.rfl)

/-- The second result: the disease graph's aggregation, rows read the kernel's way. -/
theorem result2 (c : Dev nD) : W7 m ρ c (Proc.devRef .tc main_v23)
    = disSum (F := Ideal) (disTake (F := Ideal) (DisProduct.product (m ((c : Thread nD τ).loc main_arg1)) (m ((c : Thread nD τ).loc main_arg4))) (disSrc (m ((c : Thread nD τ).loc main_arg7))))
        (disDst (m ((c : Thread nD τ).loc main_arg7))) (m ((c : Thread nD τ).loc main_arg5)) := by
  refine (ops4_sum (W6 m ρ c)).trans ?_
  have he : W4 m ρ c (Proc.devRef .tc main_arg7) = (m ((c : Thread nD τ).loc main_arg7)) :=
    (ops1_keeps_e2 (W3 m ρ c)).trans ((ops0_keeps_e2 (W2 m ρ c)).trans (kept_edges2 m ρ c))
  have hd : W6 m ρ c (Proc.devRef .tc main_v16) = disDst (m ((c : Thread nD τ).loc main_arg7)) :=
    (ops3_keeps_dst (W5 m ρ c)).trans ((ops2_dst (W4 m ρ c)).trans (congrArg disDst he))
  have hb : W6 m ρ c (Proc.devRef .tc main_arg5) = (m ((c : Thread nD τ).loc main_arg5)) :=
    (ops3_keeps_b2 (W5 m ρ c)).trans ((ops2_keeps_b2 (W4 m ρ c)).trans ((ops1_keeps_b2 (W3 m ρ c)).trans
      ((ops0_keeps_b2 (W2 m ρ c)).trans (kept_b2 m ρ c))))
  rw [take2 m ρ c, hd, hb]

end Cert.KernelIdeal.Tail

end
-- ==== Proof.PreRange.lean ====
/-
  The precondition, read back. It is a conjunction (by `and` of `i1` scalars) of six finiteness tests and, last, of the two
  range tests `all(-50000 ≤ src₁ < 50000)` and `all(-20000 ≤ src₂ < 20000)` on the source rows of the two edge lists. Being
  1, each conjunct is 1; an `all` (a reduction by `and` from 1) that is 1 had a 1 at every edge; and an edge's 1 is the two
  signed compares of its source index. The finiteness conjuncts are not opened: the two programs are equal as functions of
  any extended-real inputs once the indices are in range.
-/
import proofs.«418985_j48687749268219_1_alg».proof.Defs
import proofs.«418985_j48687749268219_1_alg».proof.Proof.Gen.Pre_finite_inputs
import proofs.«418985_j48687749268219_1_alg».proof.Proof.Aggregate
import Idealize.ShloMosaic.Lib.ReduceAll

noncomputable section

namespace Cert.KernelIdeal.PreRange

open Cert.KernelIdeal Cert.KernelIdeal.Aggregate Idealize.ShloMosaic Idealize.ShloMosaic.TcCoe Idealize.SL.Sem

instance : Subsingleton Cert.Pre_finite_inputs.S_.Idx := ⟨fun a b => funext fun d => d.elim0⟩

/-- Under the precondition every source index of the drug graph is in `[-50000, 50000)` and every source index of the
    disease graph in `[-20000, 20000)`. -/
theorem src_in_range (m : (ℓ : Loc nD τ sig) → Buf (Elt Ideal) ℓ) (hpre : Cert.Pre_KernelIdeal m) (c : Dev nD) :
    (∀ i, IntOp.cmpi .sge (drugSrc (m ((c.tc : Thread nD τ).loc main_arg6)) i) 4294917296#32 = 1#1
        ∧ IntOp.cmpi .slt (drugSrc (m ((c.tc : Thread nD τ).loc main_arg6)) i) 50000#32 = 1#1)
    ∧ (∀ i, IntOp.cmpi .sge (disSrc (m ((c.tc : Thread nD τ).loc main_arg7)) i) 4294947296#32 = 1#1
        ∧ IntOp.cmpi .slt (disSrc (m ((c.tc : Thread nD τ).loc main_arg7)) i) 20000#32 = 1#1) := by
  have h := congrFun (hpre c) (fun a => a.elim0)
  simp only [Cert.Pre_finite_inputs.fn, Cert.Pre_finite_inputs.fn_part1, Cert.Pre_finite_inputs.fn_part2] at h
  obtain ⟨h39, h49⟩ := IntOp.andi_eq_one.1 h
  obtain ⟨-, h38⟩ := IntOp.andi_eq_one.1 h39
  have a38 := Host.reduce_andi_all _ _ _ _ _ h38
  have a49 := Host.reduce_andi_all _ _ _ _ _ h49
  exact ⟨fun i => IntOp.andi_eq_one.1 (a38 i), fun i => IntOp.andi_eq_one.1 (a49 i)⟩

end Cert.KernelIdeal.PreRange

end
-- ==== Proof.RefBridge.lean ====
/-
  The reference program's two results, as its run states them, are the aggregation of x · W over the edge list with the
  plain row read: the reference's `dot_general` at entry (r, q) is the sum over the 256 (resp. 128) contracted
  positions of x(r, k) · W(k, q), which is the product the kernel's pallas_call leaves block by block; everything after
  it — the two rows of the edge list, the wrap of a negative index, the row read, the sum into destination rows, the
  bias — is the same operations on both sides.
-/
import proofs.«418985_j48687749268219_1_alg».proof.Proof.Gen.ReferenceIdeal.Read
import proofs.«418985_j48687749268219_1_alg».proof.Proof.Aggregate
import proofs.«418985_j48687749268219_1_alg».proof.Proof.DrugProduct
import proofs.«418985_j48687749268219_1_alg».proof.Proof.DisProduct

noncomputable section

namespace Cert.ReferenceIdeal.Bridge

open Cert.ReferenceIdeal Cert.ReferenceIdeal.Facts₀ Idealize.ShloMosaic Idealize.ShloMosaic.TcCoe Idealize.SL.Sem

/-- The reference's first projection is the product of x₁ and W₁, entry by entry. -/
theorem dot1_eq (x : FVec Ideal S50000x256 .f32) (w : FVec Ideal S256x64 .f32) :
    Host.dotGeneral dot_S50000x256_S256x64_S50000x64_1_0_0_1_n_n none x w = Cert.KernelIdeal.DrugProduct.product x w := by
  funext i
  refine (Read.val_main_v0_apply x w i).trans ?_
  unfold Cert.KernelIdeal.DrugProduct.product
  refine Finset.sum_congr rfl fun k _ => ?_
  have el : Read.lidx_main_v0 i k = Cert.KernelIdeal.DrugProduct.xAt i k := funext fun a => by
    match a with
    | ⟨0, _⟩ => rfl
    | ⟨1, _⟩ => rfl
  have er : Read.ridx_main_v0 i k = Cert.KernelIdeal.DrugProduct.wAt i k := funext fun a => by
    match a with
    | ⟨0, _⟩ => rfl
    | ⟨1, _⟩ => rfl
  rw [el, er]

/-- The reference's second projection is the product of x₂ and W₂, entry by entry. -/
theorem dot2_eq (x : FVec Ideal S20000x128 .f32) (w : FVec Ideal S128x64 .f32) :
    Host.dotGeneral dot_S20000x128_S128x64_S20000x64_1_0_0_1_n_n none x w = Cert.KernelIdeal.DisProduct.product x w := by
  funext i
  refine (Read.val_main_v18_apply x w i).trans ?_
  unfold Cert.KernelIdeal.DisProduct.product
  refine Finset.sum_congr rfl fun k _ => ?_
  have el : Read.lidx_main_v18 i k = Cert.KernelIdeal.DisProduct.xAt i k := funext fun a => by
    match a with
    | ⟨0, _⟩ => rfl
    | ⟨1, _⟩ => rfl
  have er : Read.ridx_main_v18 i k = Cert.KernelIdeal.DisProduct.wAt i k := funext fun a => by
    match a with
    | ⟨0, _⟩ => rfl
    | ⟨1, _⟩ => rfl
  rw [el, er]

/-- The reference's first result is the drug graph's aggregation of x₁ · W₁ with the plain row read. -/
theorem result1_eq (x : FVec Ideal S50000x256 .f32) (w : FVec Ideal S256x64 .f32)
    (b : FVec Ideal S64 .f32) (e : IVec S2x1000000 32) :
    addf (Host.scatterAdd scatter_S50000x64_S1000000x1_S1000000x64_1_0_0_1 (broadcastInDim S50000x64 ![] bcast_S_S50000x64 (constant S_ .f32 0x00000000#32)) (broadcastInDim S1000000x1 ![0] bcast_S1000000_S1000000x1_0 (shapeCast _ (extractStridedSlice S1x1000000 ![1, 0] e slices_S2x1000000_S1x1000000_1_0) shapeCasts_S1x1000000_S1000000)) (Host.gather gather_S50000x64_S1000000x1_S1000000x64_1_0_n_n_0_1_164 (Host.dotGeneral dot_S50000x256_S256x64_S50000x64_1_0_0_1_n_n none x w) (broadcastInDim S1000000x1 ![0] bcast_S1000000_S1000000x1_0 (select (cmpi .slt (shapeCast _ (extractStridedSlice S1x1000000 ![0, 0] e slices_S2x1000000_S1x1000000_0_0) shapeCasts_S1x1000000_S1000000) (broadcastInDim S1000000 ![] bcast_S_S1000000 (constantI S_ 32 0#32))) (addi (shapeCast _ (extractStridedSlice S1x1000000 ![0, 0] e slices_S2x1000000_S1x1000000_0_0) shapeCasts_S1x1000000_S1000000) (broadcastInDim S1000000 ![] bcast_S_S1000000 (constantI S_ 32 50000#32))) (shapeCast _ (extractStridedSlice S1x1000000 ![0, 0] e slices_S2x1000000_S1x1000000_0_0) shapeCasts_S1x1000000_S1000000))))) (broadcastInDim S50000x64 ![0, 1] bcast_S1x64_S50000x64_0_1 (broadcastInDim S1x64 ![1] bcast_S64_S1x64_1 b))
    = Cert.KernelIdeal.Aggregate.drugSum (F := Ideal) (Cert.KernelIdeal.Aggregate.drugRows (F := Ideal) (Cert.KernelIdeal.DrugProduct.product x w) (Cert.KernelIdeal.Aggregate.drugSrc e)) (Cert.KernelIdeal.Aggregate.drugDst e) b := by
  rw [dot1_eq]
  rfl

/-- The reference's second result is the disease graph's aggregation of x₂ · W₂ with the plain row read. -/
theorem result2_eq (x : FVec Ideal S20000x128 .f32) (w : FVec Ideal S128x64 .f32)
    (b : FVec Ideal S64 .f32) (e : IVec S2x640000 32) :
    addf (Host.scatterAdd scatter_S20000x64_S640000x1_S640000x64_1_0_0_1 (broadcastInDim S20000x64 ![] bcast_S_S20000x64 (constant S_ .f32 0x00000000#32)) (broadcastInDim S640000x1 ![0] bcast_S640000_S640000x1_0 (shapeCast _ (extractStridedSlice S1x640000 ![1, 0] e slices_S2x640000_S1x640000_1_0) shapeCasts_S1x640000_S640000)) (Host.gather gather_S20000x64_S640000x1_S640000x64_1_0_n_n_0_1_164 (Host.dotGeneral dot_S20000x128_S128x64_S20000x64_1_0_0_1_n_n none x w) (broadcastInDim S640000x1 ![0] bcast_S640000_S640000x1_0 (select (cmpi .slt (shapeCast _ (extractStridedSlice S1x640000 ![0, 0] e slices_S2x640000_S1x640000_0_0) shapeCasts_S1x640000_S640000) (broadcastInDim S640000 ![] bcast_S_S640000 (constantI S_ 32 0#32))) (addi (shapeCast _ (extractStridedSlice S1x640000 ![0, 0] e slices_S2x640000_S1x640000_0_0) shapeCasts_S1x640000_S640000) (broadcastInDim S640000 ![] bcast_S_S640000 (constantI S_ 32 20000#32))) (shapeCast _ (extractStridedSlice S1x640000 ![0, 0] e slices_S2x640000_S1x640000_0_0) shapeCasts_S1x640000_S640000))))) (broadcastInDim S20000x64 ![0, 1] bcast_S1x64_S20000x64_0_1 (broadcastInDim S1x64 ![1] bcast_S64_S1x64_1 b))
    = Cert.KernelIdeal.Aggregate.disSum (F := Ideal) (Cert.KernelIdeal.Aggregate.disRows (F := Ideal) (Cert.KernelIdeal.DisProduct.product x w) (Cert.KernelIdeal.Aggregate.disSrc e)) (Cert.KernelIdeal.Aggregate.disDst e) b := by
  rw [dot2_eq]
  rfl

end Cert.ReferenceIdeal.Bridge

end
-- ==== Proof.lean ====
/-
  Two one-layer graph convolutions without normalisation, out[i] = Σ_{edges (j → i)} (x · W)[j] + b, for a drug graph
  (50000 nodes, 1000000 edges, 256 features) and a disease graph (20000 nodes, 640000 edges, 128 features), both into 64
  hidden features. The kernel computes the two projections x · W in two pallas_calls, 5000 rows per grid point, on
  operands narrowed to bf16, and does the aggregation on the host; the reference does everything on the host.

  Over the extended reals the narrowing is the identity and a block's product into a zero accumulator is the plain sum, so
  each call leaves exactly the reference's `dot_general` (DrugProduct, DisProduct, RefBridge). After the projection (Tail, TakeDrug, TakeDis, LibTypedRefs) the two
  programs run the same operations except for the row read: the kernel's `jnp.take` tests the (wrapped) source index
  against the table and fills where it is outside, the reference's `h[src]` reads the clamped row. The statement's
  precondition asks, besides finite floats, that every source index be in range, -n ≤ src < n (negative ones counting from
  the end, as both programs read them); read back (PreRange) it makes the kernel's test 1 on every edge (LibIndexWords,
  Aggregate), so the two reads are one array and the results are equal, entry by entry, as functions of any inputs.
  The finiteness conjuncts are never opened. The destination row of the edge list goes through the same sum on both sides
  and needs no hypothesis.

  The three frames: the two kernel programs' are the generated ones; the reference's is its generated run with the
  results dropped. No operation of the kernel was rewritten for the idealized program, so nothing is owed for it.
-/
import proofs.«418985_j48687749268219_1_alg».proof.Defs
import proofs.«418985_j48687749268219_1_alg».proof.Proof.Gen.Kernel.Frame
import proofs.«418985_j48687749268219_1_alg».proof.Proof.Gen.KernelIdeal.Frame
import proofs.«418985_j48687749268219_1_alg».proof.Proof.Gen.ReferenceIdeal.Read
import proofs.«418985_j48687749268219_1_alg».proof.Proof.Gen.Pre_finite_inputs
import proofs.«418985_j48687749268219_1_alg».proof.Proof.RunNamed
import proofs.«418985_j48687749268219_1_alg».proof.Proof.Tail
import proofs.«418985_j48687749268219_1_alg».proof.Proof.PreRange
import proofs.«418985_j48687749268219_1_alg».proof.Proof.RefBridge

noncomputable section

namespace Cert.Proof

open Idealize.ShloMosaic Idealize.ShloMosaic.TcCoe Idealize.SL.Sem
open Cert.KernelIdeal.Aggregate

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with each graph's aggregation of x · W over its edge list, rows read plainly, plus the bias. -/
theorem algebraic : Cert.algebraic_KernelIdeal_ReferenceIdeal := by
  intro m ρ m' ρ' hpre hagree
  refine ⟨fun c => drugSum (F := Ideal) (drugRows (F := Ideal) (Cert.KernelIdeal.DrugProduct.product (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (drugSrc (m ((c.tc : Thread Cert.KernelIdeal.nD Cert.KernelIdeal.τ).loc Cert.KernelIdeal.main_arg6)))) (drugDst (m ((c.tc : Thread Cert.KernelIdeal.nD Cert.KernelIdeal.τ).loc Cert.KernelIdeal.main_arg6))) (m ((c.tc : Thread Cert.KernelIdeal.nD Cert.KernelIdeal.τ).loc Cert.KernelIdeal.main_arg3)),
    fun c => disSum (F := Ideal) (disRows (F := Ideal) (Cert.KernelIdeal.DisProduct.product (m ((c.tc : Thread Cert.KernelIdeal.nD Cert.KernelIdeal.τ).loc Cert.KernelIdeal.main_arg1)) (m ((c.tc : Thread Cert.KernelIdeal.nD Cert.KernelIdeal.τ).loc Cert.KernelIdeal.main_arg4))) (disSrc (m ((c.tc : Thread Cert.KernelIdeal.nD Cert.KernelIdeal.τ).loc Cert.KernelIdeal.main_arg7)))) (disDst (m ((c.tc : Thread Cert.KernelIdeal.nD Cert.KernelIdeal.τ).loc Cert.KernelIdeal.main_arg7))) (m ((c.tc : Thread Cert.KernelIdeal.nD Cert.KernelIdeal.τ).loc Cert.KernelIdeal.main_arg5)), ?_, ?_⟩
  · -- the kernel program: its run with the results named, the host tail read off, the index test discharged
    refine (θ_run Cert.KernelIdeal.defs _ _).mono (fun r h c => ?_) (Cert.KernelIdeal.GenRun.run_named (F := Ideal) m ρ)
    obtain ⟨h12, h23, hargs⟩ := h c
    obtain ⟨hs1, hs2⟩ := Cert.KernelIdeal.PreRange.src_in_range m hpre c
    refine ⟨h12.trans ?_, h23.trans ?_, hargs⟩
    · rw [Cert.KernelIdeal.Tail.result1, drugTake_eq_rows _ _ hs1]
    · rw [Cert.KernelIdeal.Tail.result2, disTake_eq_rows _ _ hs2]
  · -- the reference program: its run, the arguments' agreement, the same aggregation
    refine (θ_run Cert.ReferenceIdeal.defs _ _).mono (fun r h c => ?_) (Cert.ReferenceIdeal.Value.run (F := Ideal) m' ρ')
    obtain ⟨h17, h35, hargs⟩ := h c
    obtain ⟨a0, a1, a2, a3, a4, a5, a6, a7⟩ := hagree c
    refine ⟨h17.trans ?_, h35.trans ?_, hargs⟩
    · rw [a0, a2, a3, a6]
      exact Cert.ReferenceIdeal.Bridge.result1_eq _ _ _ _
    · rw [a1, a4, a5, a7]
      exact Cert.ReferenceIdeal.Bridge.result2_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
